-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4x32x256x256 : Shape := ⟨5, ![4, 4, 32, 256, 256]⟩
abbrev S_ : Shape := ⟨0, ![]⟩

class Facts : Prop where
  bcast_S_S4x4x32x256x256 : S_.BroadcastsInDim S4x4x32x256x256 (![] : Fin 0 → Fin S4x4x32x256x256.rank)
  reducesTo_S4x4x32x256x256_S_d0_1_2_3_4 : S4x4x32x256x256.ReducesTo [0, 1, 2, 3, 4] S_
  h_S_ : 0 < S_.numel

variable [Facts]

def fn {F : FTy → Type} [FloatOps F] (main_arg0 : FVec F S4x4x32x256x256 .f32) : IVec S_ 1 :=
  let main_v0 : FVec F S4x4x32x256x256 .f32 := Host.absf main_arg0
  let main_cst : FVec F S_ .f32 := constant S_ .f32 0x7F800000#32
  let main_v1 : FVec F S4x4x32x256x256 .f32 := broadcastInDim S4x4x32x256x256 ![] bcast_S_S4x4x32x256x256 main_cst
  let main_v2 : IVec S4x4x32x256x256 1 := cmpf .olt main_v0 main_v1
  let main_c : IVec S_ 1 := constantI S_ 1 1#1
  let main_v3 : IVec S_ 1 := (fun x v => Host.reduce IntOp.andi x v reducesTo_S4x4x32x256x256_S_d0_1_2_3_4 h_S_) main_v2 main_c
  main_v3
-- ==== Kernel.lean ====
abbrev S4x4x32x256x256 : Shape := ⟨5, ![4, 4, 32, 256, 256]⟩
abbrev S1x1x32x256x256 : Shape := ⟨5, ![1, 1, 32, 256, 256]⟩
abbrev S32x256x256 : Shape := ⟨3, ![32, 256, 256]⟩
abbrev S30x254x254 : Shape := ⟨3, ![30, 254, 254]⟩
abbrev S1x1x30x254x254 : Shape := ⟨5, ![1, 1, 30, 254, 254]⟩

abbrev nBuf : Space → Nat
  | .hbm => 2
  | .vmem => 4
  | .smem => 0
  | _ => 0

abbrev bufTy : (tb : Table) → Fin (tcTables nBuf tb) → BufTy
  | .hbm, ⟨0, _⟩ => ⟨S4x4x32x256x256, .f32⟩
  | .hbm, ⟨1, _⟩ => ⟨S4x4x32x256x256, .f32⟩
  | .local _ .vmem, ⟨0, _⟩ => ⟨S1x1x32x256x256, .f32⟩
  | .local _ .vmem, ⟨1, _⟩ => ⟨S1x1x32x256x256, .f32⟩
  | .local _ .vmem, ⟨2, _⟩ => ⟨S1x1x32x256x256, .f32⟩
  | .local _ .vmem, ⟨3, _⟩ => ⟨S1x1x32x256x256, .f32⟩
  | _, _ => ⟨S4x4x32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x32x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x32x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x1x32x256x256_S1x1x32x256x256_0_0_0_0_0 : ∀ a, (![0, 0, 0, 0, 0] : Fin 5 → Nat) a + S1x1x32x256x256.size a ≤ S1x1x32x256x256.size a
  h_S1x1x32x256x256 : 0 < S1x1x32x256x256.numel
  shapeCasts_S1x1x32x256x256_S32x256x256 : S1x1x32x256x256.ShapeCasts S32x256x256
  slices_S32x256x256_o1_1_1_S30x254x254 : S32x256x256.Slices ![1, 1, 1] S30x254x254
  slices_S32x256x256_o0_0_0_S30x254x254 : S32x256x256.Slices ![0, 0, 0] S30x254x254
  slices_S32x256x256_o0_0_1_S30x254x254 : S32x256x256.Slices ![0, 0, 1] S30x254x254
  slices_S32x256x256_o0_0_2_S30x254x254 : S32x256x256.Slices ![0, 0, 2] S30x254x254
  slices_S32x256x256_o0_1_0_S30x254x254 : S32x256x256.Slices ![0, 1, 0] S30x254x254
  slices_S32x256x256_o0_1_1_S30x254x254 : S32x256x256.Slices ![0, 1, 1] S30x254x254
  slices_S32x256x256_o0_1_2_S30x254x254 : S32x256x256.Slices ![0, 1, 2] S30x254x254
  slices_S32x256x256_o0_2_0_S30x254x254 : S32x256x256.Slices ![0, 2, 0] S30x254x254
  slices_S32x256x256_o0_2_1_S30x254x254 : S32x256x256.Slices ![0, 2, 1] S30x254x254
  slices_S32x256x256_o0_2_2_S30x254x254 : S32x256x256.Slices ![0, 2, 2] S30x254x254
  slices_S32x256x256_o1_0_0_S30x254x254 : S32x256x256.Slices ![1, 0, 0] S30x254x254
  slices_S32x256x256_o1_0_1_S30x254x254 : S32x256x256.Slices ![1, 0, 1] S30x254x254
  slices_S32x256x256_o1_0_2_S30x254x254 : S32x256x256.Slices ![1, 0, 2] S30x254x254
  slices_S32x256x256_o1_1_0_S30x254x254 : S32x256x256.Slices ![1, 1, 0] S30x254x254
  slices_S32x256x256_o1_1_2_S30x254x254 : S32x256x256.Slices ![1, 1, 2] S30x254x254
  slices_S32x256x256_o1_2_0_S30x254x254 : S32x256x256.Slices ![1, 2, 0] S30x254x254
  slices_S32x256x256_o1_2_1_S30x254x254 : S32x256x256.Slices ![1, 2, 1] S30x254x254
  slices_S32x256x256_o1_2_2_S30x254x254 : S32x256x256.Slices ![1, 2, 2] S30x254x254
  slices_S32x256x256_o2_0_0_S30x254x254 : S32x256x256.Slices ![2, 0, 0] S30x254x254
  slices_S32x256x256_o2_0_1_S30x254x254 : S32x256x256.Slices ![2, 0, 1] S30x254x254
  slices_S32x256x256_o2_0_2_S30x254x254 : S32x256x256.Slices ![2, 0, 2] S30x254x254
  slices_S32x256x256_o2_1_0_S30x254x254 : S32x256x256.Slices ![2, 1, 0] S30x254x254
  slices_S32x256x256_o2_1_1_S30x254x254 : S32x256x256.Slices ![2, 1, 1] S30x254x254
  slices_S32x256x256_o2_1_2_S30x254x254 : S32x256x256.Slices ![2, 1, 2] S30x254x254
  slices_S32x256x256_o2_2_0_S30x254x254 : S32x256x256.Slices ![2, 2, 0] S30x254x254
  slices_S32x256x256_o2_2_1_S30x254x254 : S32x256x256.Slices ![2, 2, 1] S30x254x254
  slices_S32x256x256_o2_2_2_S30x254x254 : S32x256x256.Slices ![2, 2, 2] S30x254x254
  shapeCasts_S32x256x256_S1x1x32x256x256 : S32x256x256.ShapeCasts S1x1x32x256x256
  natLt_1_32 : 1 < 32
  inb_S1x1x32x256x256_S1x1x30x254x254_0_0_1_1_1 : ∀ a, (![0, 0, 1, 1, 1] : Fin 5 → Nat) a + S1x1x30x254x254.size a ≤ S1x1x32x256x256.size a
  h_S1x1x30x254x254 : 0 < S1x1x30x254x254.numel
  shapeCasts_S1x1x30x254x254_S30x254x254 : S1x1x30x254x254.ShapeCasts S30x254x254
  shapeCasts_S30x254x254_S1x1x30x254x254 : S30x254x254.ShapeCasts S1x1x30x254x254
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x32x256x256.size a ≤ S4x4x32x256x256.size a
  hwx0_0 : ∀ i : grid0.Coords, EltTy.bits .f32 = 32 ∨ (Rect.block (s := S4x4x32x256x256) S1x1x32x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x32x256x256.size a ≤ S4x4x32x256x256.size a
  hwx0_1 : ∀ i : grid0.Coords, EltTy.bits .f32 = 32 ∨ (Rect.block (s := S4x4x32x256x256) S1x1x32x256x256.size (cc0_transform_1 i) (hinb0_1 i)).WholeWords (EltTy.packing .f32)

variable [Facts₀]

abbrev win0_0 : Pipeline.Window sig grid0 :=
  Pipeline.Window.ofSpec (Memref.whole main_arg0) S1x1x32x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x32x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x4x32x256x256 : Shape := ⟨5, ![4, 4, 32, 256, 256]⟩
abbrev S4x4x30x254x254 : Shape := ⟨5, ![4, 4, 30, 254, 254]⟩
abbrev S_ : Shape := ⟨0, ![]⟩
abbrev S1 : Shape := ⟨1, ![1]⟩
abbrev S3 : Shape := ⟨1, ![3]⟩

abbrev nBuf : Space → Nat
  | .hbm => 94
  | .vmem => 0
  | .smem => 0
  | _ => 0

abbrev bufTy : (tb : Table) → Fin (tcTables nBuf tb) → BufTy
  | .hbm, ⟨0, _⟩ => ⟨S4x4x32x256x256, .f32⟩
  | .hbm, ⟨1, _⟩ => ⟨S4x4x30x254x254, .f32⟩
  | .hbm, ⟨2, _⟩ => ⟨S_, .i1⟩
  | .hbm, ⟨3, _⟩ => ⟨S4x4x30x254x254, .i1⟩
  | .hbm, ⟨4, _⟩ => ⟨S4x4x30x254x254, .f32⟩
  | .hbm, ⟨5, _⟩ => ⟨S4x4x30x254x254, .i1⟩
  | .hbm, ⟨6, _⟩ => ⟨S4x4x30x254x254, .i1⟩
  | .hbm, ⟨7, _⟩ => ⟨S4x4x30x254x254, .f32⟩
  | .hbm, ⟨8, _⟩ => ⟨S4x4x30x254x254, .i1⟩
  | .hbm, ⟨9, _⟩ => ⟨S4x4x30x254x254, .i1⟩
  | .hbm, ⟨10, _⟩ => ⟨S4x4x30x254x254, .f32⟩
  | .hbm, ⟨11, _⟩ => ⟨S4x4x30x254x254, .i1⟩
  | .hbm, ⟨12, _⟩ => ⟨S4x4x30x254x254, .i1⟩
  | .hbm, ⟨13, _⟩ => ⟨S4x4x30x254x254, .f32⟩
  | .hbm, ⟨14, _⟩ => ⟨S4x4x30x254x254, .i1⟩
  | .hbm, ⟨15, _⟩ => ⟨S4x4x30x254x254, .i1⟩
  | .hbm, ⟨16, _⟩ => ⟨S4x4x30x254x254, .f32⟩
  | .hbm, ⟨17, _⟩ => ⟨S4x4x30x254x254, .i1⟩
  | .hbm, ⟨18, _⟩ => ⟨S4x4x30x254x254, .i1⟩
  | .hbm, ⟨19, _⟩ => ⟨S4x4x30x254x254, .f32⟩
  | .hbm, ⟨20, _⟩ => ⟨S4x4x30x254x254, .i1⟩
  | .hbm, ⟨21, _⟩ => ⟨S4x4x30x254x254, .i1⟩
  | .hbm, ⟨22, _⟩ => ⟨S4x4x30x254x254, .f32⟩
  | .hbm, ⟨23, _⟩ => ⟨S4x4x30x254x254, .i1⟩
  | .hbm, ⟨24, _⟩ => ⟨S4x4x30x254x254, .i1⟩
  | .hbm, ⟨25, _⟩ => ⟨S4x4x30x254x254, .f32⟩
  | .hbm, ⟨26, _⟩ => ⟨S4x4x30x254x254, .i1⟩
  | .hbm, ⟨27, _⟩ => ⟨S4x4x30x254x254, .i1⟩
  | .hbm, ⟨28, _⟩ => ⟨S4x4x30x254x254, .f32⟩
  | .hbm, ⟨29, _⟩ => ⟨S4x4x30x254x254, .i1⟩
  | .hbm, ⟨30, _⟩ => ⟨S4x4x30x254x254, .i1⟩
  | .hbm, ⟨31, _⟩ => ⟨S4x4x30x254x254, .f32⟩
  | .hbm, ⟨32, _⟩ => ⟨S4x4x30x254x254, .i1⟩
  | .hbm, ⟨33, _⟩ => ⟨S4x4x30x254x254, .i1⟩
  | .hbm, ⟨34, _⟩ => ⟨S4x4x30x254x254, .f32⟩
  | .hbm, ⟨35, _⟩ => ⟨S4x4x30x254x254, .i1⟩
  | .hbm, ⟨36, _⟩ => ⟨S4x4x30x254x254, .i1⟩
  | .hbm, ⟨37, _⟩ => ⟨S4x4x30x254x254, .f32⟩
  | .hbm, ⟨38, _⟩ => ⟨S4x4x30x254x254, .i1⟩
  | .hbm, ⟨39, _⟩ => ⟨S4x4x30x254x254, .i1⟩
  | .hbm, ⟨40, _⟩ => ⟨S4x4x30x254x254, .f32⟩
  | .hbm, ⟨41, _⟩ => ⟨S4x4x30x254x254, .i1⟩
  | .hbm, ⟨42, _⟩ => ⟨S4x4x30x254x254, .i1⟩
  | .hbm, ⟨43, _⟩ => ⟨S4x4x30x254x254, .f32⟩
  | .hbm, ⟨44, _⟩ => ⟨S4x4x30x254x254, .i1⟩
  | .hbm, ⟨45, _⟩ => ⟨S4x4x30x254x254, .i1⟩
  | .hbm, ⟨46, _⟩ => ⟨S4x4x30x254x254, .f32⟩
  | .hbm, ⟨47, _⟩ => ⟨S4x4x30x254x254, .i1⟩
  | .hbm, ⟨48, _⟩ => ⟨S4x4x30x254x254, .i1⟩
  | .hbm, ⟨49, _⟩ => ⟨S4x4x30x254x254, .f32⟩
  | .hbm, ⟨50, _⟩ => ⟨S4x4x30x254x254, .i1⟩
  | .hbm, ⟨51, _⟩ => ⟨S4x4x30x254x254, .i1⟩
  | .hbm, ⟨52, _⟩ => ⟨S4x4x30x254x254, .f32⟩
  | .hbm, ⟨53, _⟩ => ⟨S4x4x30x254x254, .i1⟩
  | .hbm, ⟨54, _⟩ => ⟨S4x4x30x254x254, .i1⟩
  | .hbm, ⟨55, _⟩ => ⟨S4x4x30x254x254, .f32⟩
  | .hbm, ⟨56, _⟩ => ⟨S4x4x30x254x254, .i1⟩
  | .hbm, ⟨57, _⟩ => ⟨S4x4x30x254x254, .i1⟩
  | .hbm, ⟨58, _⟩ => ⟨S4x4x30x254x254, .f32⟩
  | .hbm, ⟨59, _⟩ => ⟨S4x4x30x254x254, .i1⟩
  | .hbm, ⟨60, _⟩ => ⟨S4x4x30x254x254, .i1⟩
  | .hbm, ⟨61, _⟩ => ⟨S4x4x30x254x254, .f32⟩
  | .hbm, ⟨62, _⟩ => ⟨S4x4x30x254x254, .i1⟩
  | .hbm, ⟨63, _⟩ => ⟨S4x4x30x254x254, .i1⟩
  | .hbm, ⟨64, _⟩ => ⟨S4x4x30x254x254, .f32⟩
  | .hbm, ⟨65, _⟩ => ⟨S4x4x30x254x254, .i1⟩
  | .hbm, ⟨66, _⟩ => ⟨S4x4x30x254x254, .i1⟩
  | .hbm, ⟨67, _⟩ => ⟨S4x4x30x254x254, .f32⟩
  | .hbm, ⟨68, _⟩ => ⟨S4x4x30x254x254, .i1⟩
  | .hbm, ⟨69, _⟩ => ⟨S4x4x30x254x254, .i1⟩
  | .hbm, ⟨70, _⟩ => ⟨S4x4x30x254x254, .f32⟩
  | .hbm, ⟨71, _⟩ => ⟨S4x4x30x254x254, .i1⟩
  | .hbm, ⟨72, _⟩ => ⟨S4x4x30x254x254, .i1⟩
  | .hbm, ⟨73, _⟩ => ⟨S4x4x30x254x254, .f32⟩
  | .hbm, ⟨74, _⟩ => ⟨S4x4x30x254x254, .i1⟩
  | .hbm, ⟨75, _⟩ => ⟨S4x4x30x254x254, .i1⟩
  | .hbm, ⟨76, _⟩ => ⟨S4x4x30x254x254, .f32⟩
  | .hbm, ⟨77, _⟩ => ⟨S4x4x30x254x254, .i1⟩
  | .hbm, ⟨78, _⟩ => ⟨S4x4x30x254x254, .i1⟩
  | .hbm, ⟨79, _⟩ => ⟨S4x4x30x254x254, .f32⟩
  | .hbm, ⟨80, _⟩ => ⟨S4x4x30x254x254, .i1⟩
  | .hbm, ⟨81, _⟩ => ⟨S4x4x30x254x254, .i1⟩
  | .hbm, ⟨82, _⟩ => ⟨S_, .i1⟩
  | .hbm, ⟨83, _⟩ => ⟨S4x4x32x256x256, .i1⟩
  | .hbm, ⟨84, _⟩ => ⟨S_, .i32⟩
  | .hbm, ⟨85, _⟩ => ⟨S1, .i32⟩
  | .hbm, ⟨86, _⟩ => ⟨S_, .i32⟩
  | .hbm, ⟨87, _⟩ => ⟨S1, .i32⟩
  | .hbm, ⟨88, _⟩ => ⟨S_, .i32⟩
  | .hbm, ⟨89, _⟩ => ⟨S1, .i32⟩
  | .hbm, ⟨90, _⟩ => ⟨S3, .i32⟩
  | .hbm, ⟨91, _⟩ => ⟨S4x4x32x256x256, .i1⟩
  | .hbm, ⟨92, _⟩ => ⟨S4x4x32x256x256, .f32⟩
  | .hbm, ⟨93, _⟩ => ⟨S4x4x32x256x256, .f32⟩
  | _, _ => ⟨S4x4x32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_c_0 : Ref sig .tc := ⟨.hbm, 82, rfl⟩
abbrev main_v80 : Ref sig .tc := ⟨.hbm, 83, rfl⟩
abbrev main_c_1 : Ref sig .tc := ⟨.hbm, 84, rfl⟩
abbrev main_v81 : Ref sig .tc := ⟨.hbm, 85, rfl⟩
abbrev main_c_2 : Ref sig .tc := ⟨.hbm, 86, rfl⟩
abbrev main_v82 : Ref sig .tc := ⟨.hbm, 87, rfl⟩
abbrev main_c_3 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩

abbrev nD : Nat := 1
abbrev τ : Topo := Topo.v7x

variable {F : FTy → Type} [FloatOps F]

class Facts₀ : Prop where
  slices_S4x4x32x256x256_S4x4x30x254x254_0_0_1_1_1 : S4x4x32x256x256.Slices ![0, 0, 1, 1, 1] S4x4x30x254x254
  bcast_S_S4x4x30x254x254 : S_.BroadcastsInDim S4x4x30x254x254 (![] : Fin 0 → Fin S4x4x30x254x254.rank)
  slices_S4x4x32x256x256_S4x4x30x254x254_0_0_0_0_0 : S4x4x32x256x256.Slices ![0, 0, 0, 0, 0] S4x4x30x254x254
  slices_S4x4x32x256x256_S4x4x30x254x254_0_0_0_0_1 : S4x4x32x256x256.Slices ![0, 0, 0, 0, 1] S4x4x30x254x254
  slices_S4x4x32x256x256_S4x4x30x254x254_0_0_0_0_2 : S4x4x32x256x256.Slices ![0, 0, 0, 0, 2] S4x4x30x254x254
  slices_S4x4x32x256x256_S4x4x30x254x254_0_0_0_1_0 : S4x4x32x256x256.Slices ![0, 0, 0, 1, 0] S4x4x30x254x254
  slices_S4x4x32x256x256_S4x4x30x254x254_0_0_0_1_1 : S4x4x32x256x256.Slices ![0, 0, 0, 1, 1] S4x4x30x254x254
  slices_S4x4x32x256x256_S4x4x30x254x254_0_0_0_1_2 : S4x4x32x256x256.Slices ![0, 0, 0, 1, 2] S4x4x30x254x254
  slices_S4x4x32x256x256_S4x4x30x254x254_0_0_0_2_0 : S4x4x32x256x256.Slices ![0, 0, 0, 2, 0] S4x4x30x254x254
  slices_S4x4x32x256x256_S4x4x30x254x254_0_0_0_2_1 : S4x4x32x256x256.Slices ![0, 0, 0, 2, 1] S4x4x30x254x254
  slices_S4x4x32x256x256_S4x4x30x254x254_0_0_0_2_2 : S4x4x32x256x256.Slices ![0, 0, 0, 2, 2] S4x4x30x254x254
  slices_S4x4x32x256x256_S4x4x30x254x254_0_0_1_0_0 : S4x4x32x256x256.Slices ![0, 0, 1, 0, 0] S4x4x30x254x254
  slices_S4x4x32x256x256_S4x4x30x254x254_0_0_1_0_1 : S4x4x32x256x256.Slices ![0, 0, 1, 0, 1] S4x4x30x254x254
  slices_S4x4x32x256x256_S4x4x30x254x254_0_0_1_0_2 : S4x4x32x256x256.Slices ![0, 0, 1, 0, 2] S4x4x30x254x254
  slices_S4x4x32x256x256_S4x4x30x254x254_0_0_1_1_0 : S4x4x32x256x256.Slices ![0, 0, 1, 1, 0] S4x4x30x254x254
  slices_S4x4x32x256x256_S4x4x30x254x254_0_0_1_1_2 : S4x4x32x256x256.Slices ![0, 0, 1, 1, 2] S4x4x30x254x254
  slices_S4x4x32x256x256_S4x4x30x254x254_0_0_1_2_0 : S4x4x32x256x256.Slices ![0, 0, 1, 2, 0] S4x4x30x254x254
  slices_S4x4x32x256x256_S4x4x30x254x254_0_0_1_2_1 : S4x4x32x256x256.Slices ![0, 0, 1, 2, 1] S4x4x30x254x254
  slices_S4x4x32x256x256_S4x4x30x254x254_0_0_1_2_2 : S4x4x32x256x256.Slices ![0, 0, 1, 2, 2] S4x4x30x254x254
  slices_S4x4x32x256x256_S4x4x30x254x254_0_0_2_0_0 : S4x4x32x256x256.Slices ![0, 0, 2, 0, 0] S4x4x30x254x254
  slices_S4x4x32x256x256_S4x4x30x254x254_0_0_2_0_1 : S4x4x32x256x256.Slices ![0, 0, 2, 0, 1] S4x4x30x254x254
  slices_S4x4x32x256x256_S4x4x30x254x254_0_0_2_0_2 : S4x4x32x256x256.Slices ![0, 0, 2, 0, 2] S4x4x30x254x254
  slices_S4x4x32x256x256_S4x4x30x254x254_0_0_2_1_0 : S4x4x32x256x256.Slices ![0, 0, 2, 1, 0] S4x4x30x254x254
  slices_S4x4x32x256x256_S4x4x30x254x254_0_0_2_1_1 : S4x4x32x256x256.Slices ![0, 0, 2, 1, 1] S4x4x30x254x254
  slices_S4x4x32x256x256_S4x4x30x254x254_0_0_2_1_2 : S4x4x32x256x256.Slices ![0, 0, 2, 1, 2] S4x4x30x254x254
  slices_S4x4x32x256x256_S4x4x30x254x254_0_0_2_2_0 : S4x4x32x256x256.Slices ![0, 0, 2, 2, 0] S4x4x30x254x254
  slices_S4x4x32x256x256_S4x4x30x254x254_0_0_2_2_1 : S4x4x32x256x256.Slices ![0, 0, 2, 2, 1] S4x4x30x254x254
  slices_S4x4x32x256x256_S4x4x30x254x254_0_0_2_2_2 : S4x4x32x256x256.Slices ![0, 0, 2, 2, 2] S4x4x30x254x254
  bcast_S_S4x4x32x256x256 : S_.BroadcastsInDim S4x4x32x256x256 (![] : Fin 0 → Fin S4x4x32x256x256.rank)
  bcast_S_S1 : S_.BroadcastsInDim S1 (![] : Fin 0 → Fin S1.rank)
  concatenates_S1_S1_S1_S3_d0 : Shape.Concatenates [S1, S1, S1] S3 0
  scatter_S4x4x32x256x256_S3_S4x4x30x254x254_01234_n_234_0_wf : ScatterDims.WF S4x4x32x256x256 S3 S4x4x30x254x254 [0, 1, 2, 3, 4] [] [2, 3, 4] 0

variable [Facts₀]

def scatter_S4x4x32x256x256_S3_S4x4x30x254x254_01234_n_234_0 : ScatterDims S4x4x32x256x256 S3 S4x4x30x254x254 where
  updateWindowDims := [0, 1, 2, 3, 4]
  insertedWindowDims := []
  scatterDimsToOperandDims := [2, 3, 4]
  indexVectorDim := 0
  wf := scatter_S4x4x32x256x256_S3_S4x4x30x254x254_01234_n_234_0_wf

class Facts : Prop extends Facts₀ where

variable [Facts]
-- ==== Proof.KernelBody.lean ====
/-
  The frame of the program `Cert.Kernel`, and what its output array holds afterwards, at any number type.

  The program is one pipelined region over a 4 x 4 grid. At point (b, ch) the body is handed block (b, ch) of the
  argument — a [1, 1, 32, 256, 256] slab — and an output buffer of the same shape. It reads the slab, writes zeros
  over the whole output buffer, then writes `centre * keep` over the inner [1, 1, 30, 254, 254] part (offset
  (0, 0, 1, 1, 1)), where `keep` is the and of the 26 strict comparisons of a centre with its neighbours. So the
  buffer is flushed holding: the later store where it reaches (the inner part), zeros elsewhere. This module names
  that block (`outBlock`), proves the body leaves it, and launches the pipeline with it as the proof data.
-/
import proofs.«158420_j35021163332235_1_alg».proof.Proof.Gen.Kernel.Frame
import proofs.«158420_j35021163332235_1_alg».proof.Proof.Gen.Kernel.Skeleton
import Idealize.ShloMosaic.Lib.Pipeline.Frame
import Idealize.ShloMosaic.Lib.Pipeline.Value
import Idealize.ShloMosaic.Lib.Exec.Geometry

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two rectangles the body stores through -/

/-- The whole [1, 1, 32, 256, 256] block, -/
abbrev rAll : Rect S1x1x32x256x256 :=
  Rect.unit (s := S1x1x32x256x256) ![0, 0, 0, 0, 0] S1x1x32x256x256.size Facts₀.inb_S1x1x32x256x256_S1x1x32x256x256_0_0_0_0_0
/-- and its inner [1, 1, 30, 254, 254] part, one entry in from each face of the last three axes. -/
abbrev rIn : Rect S1x1x32x256x256 :=
  Rect.unit (s := S1x1x32x256x256) ![0, 0, 1, 1, 1] S1x1x30x254x254.size Facts₀.inb_S1x1x32x256x256_S1x1x30x254x254_0_0_1_1_1

theorem offAll_zero : (![0, 0, 0, 0, 0] : Fin S1x1x32x256x256.rank → Nat) = fun _ => 0 :=
  funext fun a => match a with
    | ⟨0, _⟩ => rfl | ⟨1, _⟩ => rfl | ⟨2, _⟩ => rfl | ⟨3, _⟩ => rfl | ⟨4, _⟩ => rfl

/-! ## What the output's buffer holds after the body -/

/-- The body's two stores into the output block, the later first: the inner entries times their keep-bits over the
    inner part, written over zeros everywhere. `x0` is the input block. -/
def pieces (x0 : Vec F S1x1x32x256x256 .f32) : List (View.Piece (Elt F) S1x1x32x256x256 .f32) :=
  [⟨rIn, k0_pay2 (k0_pay3 x0) (k0_pay4 x0) (k0_pay5 x0)⟩, ⟨rAll, k0_pay1⟩]

/-- The output block the body leaves: at each index the latest store that reaches it. -/
def outBlock (x0 : Vec F S1x1x32x256x256 .f32) : Vec F S1x1x32x256x256 .f32 := View.canon (pieces x0)

/-- The store of zeros reaches every index of the block, so the two stores cover it whatever the later one carries. -/
theorem cover_any (p : rIn.shape.Idx → Elt F .f32) (q : rAll.shape.Idx → Elt F .f32) (y : S1x1x32x256x256.Idx) :
    ∃ pc ∈ ([⟨rIn, p⟩, ⟨rAll, q⟩] : List (View.Piece (Elt F) S1x1x32x256x256 .f32)), y ∈ pc.1.set :=
  ⟨_, List.mem_cons_of_mem _ List.mem_cons_self, View.mem_set_unit_zero offAll_zero Facts₀.inb_S1x1x32x256x256_S1x1x32x256x256_0_0_0_0_0 y⟩

/-! ## The body's triple -/

set_option maxHeartbeats 2000000 in
/-- The kernel body on whole staging buffers — the input's at contents `x0`, the output's at anything — runs to the
    continuation holding the input's as it was and the output's at `outBlock x0`. The body reads the input block once,
    stores zeros over the whole output block and then the product over its inner part; the two reads it makes of the
    output buffer feed nothing. -/
theorem sound_kernel (c : Dev nD) (E : Set ℕ) (i : grid0.Coords)
    (arg2 : Memref sig .tc .vmem S1x1x32x256x256 .f32) (harg2 : arg2.IsWhole)
    (arg3 : Memref sig .tc .vmem S1x1x32x256x256 .f32) (harg3 : arg3.IsWhole)
    (x0 : Vec F S1x1x32x256x256 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (outBlock x0)) -∗ K ⟨⟩))
      ⊢ wp frame (wpE (defs₀ (F := F)) Variants.none c none) E (cc0__nms_kernel i arg2 harg2 arg3 harg3) K := by
  simp only [cc0__nms_kernel_eq_skeleton]; unfold cc0__nms_kernel_skel
  simp only [k0_part1_eq_skeleton]
  unfold owns
  iintro ⟨⟨%f0, %hf0, H0⟩, ⟨%d1, %f1, -, H1⟩, Hk⟩
  obtain rfl := harg2.eq_unread hf0
  sl_exec
  sl_step
  iapply Hk
  isplitl [H0]
  · iexists _; isplitr; · ipureintro; exact harg2.read_unread _
    iexact H0
  iexists _; isplitr
  swap; · iexact H1
  ipureintro
  rw [View.read_writes_eq_canon _ _ _ (cover_any _ _)]
  unfold outBlock pieces
  sl_unfold_words
  simp only [View.readAt_eq_ld, harg2.read_unread, View.ld_unit_zero (S := S1x1x32x256x256) offAll_zero]

/-! ## The pipeline's proof data -/

/-- On core `c`: the arrays as the region finds them; after the body at point `t` the input's buffer still at its block
    and the output's at `outBlock` of that block; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlock (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outBlock (iblk m c 0 t) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's buffer holds its block, so the triple applies; what the output's buffer held
    before is never used. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and in every final state
    each array of the pipeline holds what the proof data's write-backs leave (the output: `arrAt 1`), every other
    unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Body

end
-- ==== Proof.KernelIdealBody.lean ====
/-
  The frame of the program `Cert.KernelIdeal`, and what its output array holds afterwards, at any number type.

  The program is one pipelined region over a 4 x 4 grid. At point (b, ch) the body is handed block (b, ch) of the
  argument — a [1, 1, 32, 256, 256] slab — and an output buffer of the same shape. It reads the slab, writes zeros
  over the whole output buffer, then writes `centre * keep` over the inner [1, 1, 30, 254, 254] part (offset
  (0, 0, 1, 1, 1)), where `keep` is the and of the 26 strict comparisons of a centre with its neighbours. So the
  buffer is flushed holding: the later store where it reaches (the inner part), zeros elsewhere. This module names
  that block (`outBlock`), proves the body leaves it, and launches the pipeline with it as the proof data.
-/
import proofs.«158420_j35021163332235_1_alg».proof.Proof.Gen.KernelIdeal.Frame
import proofs.«158420_j35021163332235_1_alg».proof.Proof.Gen.KernelIdeal.Skeleton
import Idealize.ShloMosaic.Lib.Pipeline.Frame
import Idealize.ShloMosaic.Lib.Pipeline.Value
import Idealize.ShloMosaic.Lib.Exec.Geometry

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two rectangles the body stores through -/

/-- The whole [1, 1, 32, 256, 256] block, -/
abbrev rAll : Rect S1x1x32x256x256 :=
  Rect.unit (s := S1x1x32x256x256) ![0, 0, 0, 0, 0] S1x1x32x256x256.size Facts₀.inb_S1x1x32x256x256_S1x1x32x256x256_0_0_0_0_0
/-- and its inner [1, 1, 30, 254, 254] part, one entry in from each face of the last three axes. -/
abbrev rIn : Rect S1x1x32x256x256 :=
  Rect.unit (s := S1x1x32x256x256) ![0, 0, 1, 1, 1] S1x1x30x254x254.size Facts₀.inb_S1x1x32x256x256_S1x1x30x254x254_0_0_1_1_1

theorem offAll_zero : (![0, 0, 0, 0, 0] : Fin S1x1x32x256x256.rank → Nat) = fun _ => 0 :=
  funext fun a => match a with
    | ⟨0, _⟩ => rfl | ⟨1, _⟩ => rfl | ⟨2, _⟩ => rfl | ⟨3, _⟩ => rfl | ⟨4, _⟩ => rfl

/-! ## What the output's buffer holds after the body -/

/-- The body's two stores into the output block, the later first: the inner entries times their keep-bits over the
    inner part, written over zeros everywhere. `x0` is the input block. -/
def pieces (x0 : Vec F S1x1x32x256x256 .f32) : List (View.Piece (Elt F) S1x1x32x256x256 .f32) :=
  [⟨rIn, k0_pay2 (k0_pay3 x0) (k0_pay4 x0) (k0_pay5 x0)⟩, ⟨rAll, k0_pay1⟩]

/-- The output block the body leaves: at each index the latest store that reaches it. -/
def outBlock (x0 : Vec F S1x1x32x256x256 .f32) : Vec F S1x1x32x256x256 .f32 := View.canon (pieces x0)

/-- The store of zeros reaches every index of the block, so the two stores cover it whatever the later one carries. -/
theorem cover_any (p : rIn.shape.Idx → Elt F .f32) (q : rAll.shape.Idx → Elt F .f32) (y : S1x1x32x256x256.Idx) :
    ∃ pc ∈ ([⟨rIn, p⟩, ⟨rAll, q⟩] : List (View.Piece (Elt F) S1x1x32x256x256 .f32)), y ∈ pc.1.set :=
  ⟨_, List.mem_cons_of_mem _ List.mem_cons_self, View.mem_set_unit_zero offAll_zero Facts₀.inb_S1x1x32x256x256_S1x1x32x256x256_0_0_0_0_0 y⟩

/-! ## The body's triple -/

set_option maxHeartbeats 2000000 in
/-- The kernel body on whole staging buffers — the input's at contents `x0`, the output's at anything — runs to the
    continuation holding the input's as it was and the output's at `outBlock x0`. The body reads the input block once,
    stores zeros over the whole output block and then the product over its inner part; the two reads it makes of the
    output buffer feed nothing. -/
theorem sound_kernel (c : Dev nD) (E : Set ℕ) (i : grid0.Coords)
    (arg2 : Memref sig .tc .vmem S1x1x32x256x256 .f32) (harg2 : arg2.IsWhole)
    (arg3 : Memref sig .tc .vmem S1x1x32x256x256 .f32) (harg3 : arg3.IsWhole)
    (x0 : Vec F S1x1x32x256x256 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (outBlock x0)) -∗ K ⟨⟩))
      ⊢ wp frame (wpE (defs₀ (F := F)) Variants.none c none) E (cc0__nms_kernel i arg2 harg2 arg3 harg3) K := by
  simp only [cc0__nms_kernel_eq_skeleton]; unfold cc0__nms_kernel_skel
  simp only [k0_part1_eq_skeleton]
  unfold owns
  iintro ⟨⟨%f0, %hf0, H0⟩, ⟨%d1, %f1, -, H1⟩, Hk⟩
  obtain rfl := harg2.eq_unread hf0
  sl_exec
  sl_step
  iapply Hk
  isplitl [H0]
  · iexists _; isplitr; · ipureintro; exact harg2.read_unread _
    iexact H0
  iexists _; isplitr
  swap; · iexact H1
  ipureintro
  rw [View.read_writes_eq_canon _ _ _ (cover_any _ _)]
  unfold outBlock pieces
  sl_unfold_words
  simp only [View.readAt_eq_ld, harg2.read_unread, View.ld_unit_zero (S := S1x1x32x256x256) offAll_zero]

/-! ## The pipeline's proof data -/

/-- On core `c`: the arrays as the region finds them; after the body at point `t` the input's buffer still at its block
    and the output's at `outBlock` of that block; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlock (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outBlock (iblk m c 0 t) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's buffer holds its block, so the triple applies; what the output's buffer held
    before is never used. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and in every final state
    each array of the pipeline holds what the proof data's write-backs leave (the output: `arrAt 1`), every other
    unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Body

end
-- ==== Proof.Spec.lean ====
/-
  Non-maximum suppression with a 3x3x3 window on a [4, 4, 32, 256, 256] array, stated once for both programs.

  An entry is INNER when, on each of the last three axes, it has a neighbour on both sides: coordinates 1..30 of 32
  and 1..254 of 256. The inner entries form a [4, 4, 30, 254, 254] array, entry `(b, c, d, h, w)` of which sits at
  `(b, c, d + 1, h + 1, w + 1)` of the whole one. Given a keep-bit for every inner entry, the suppressed array
  holds `x i * keep` (the bit read as the number 0 or 1) at an inner entry and `0` at every other entry.
  Both programs compute this function, with the same keep-bits: the conjunction over the 26 neighbours of
  "strictly greater than that neighbour".
-/
import Idealize.ShloMosaic.PureOps.Ideal
import Idealize.ShloMosaic.Lib.ValueIdx

noncomputable section

namespace Cert.Nms

open Idealize.ShloMosaic

/-- The whole array's shape, and the shape of its inner entries. -/
abbrev Whole : Shape := ⟨5, ![4, 4, 32, 256, 256]⟩
abbrev Inside : Shape := ⟨5, ![4, 4, 30, 254, 254]⟩

/-- An entry with a neighbour on both sides along each of the last three axes. -/
def Inner (i : Whole.Idx) : Prop :=
  1 ≤ (i 2).val ∧ (i 2).val ≤ 30 ∧ 1 ≤ (i 3).val ∧ (i 3).val ≤ 254 ∧ 1 ≤ (i 4).val ∧ (i 4).val ≤ 254

instance (i : Whole.Idx) : Decidable (Inner i) := by unfold Inner; infer_instance

/-- An inner entry's position among the inner entries: one less on each of the last three axes. -/
def inward (i : Whole.Idx) (h : Inner i) : Inside.Idx := fun a => match a with
  | ⟨0, _⟩ => ⟨(i 0).val, (i 0).isLt⟩
  | ⟨1, _⟩ => ⟨(i 1).val, (i 1).isLt⟩
  | ⟨2, _⟩ => ⟨(i 2).val - 1, by have := h.1; have := h.2.1; show (i 2).val - 1 < 30; omega⟩
  | ⟨3, _⟩ => ⟨(i 3).val - 1, by have := h.2.2.1; have := h.2.2.2.1; show (i 3).val - 1 < 254; omega⟩
  | ⟨4, _⟩ => ⟨(i 4).val - 1, by have := h.2.2.2.2.1; have := h.2.2.2.2.2; show (i 4).val - 1 < 254; omega⟩

/-- Where inner entry `j` sits in the whole array: one more on each of the last three axes. -/
def outward (j : Inside.Idx) : Whole.Idx := fun a => match a with
  | ⟨0, _⟩ => ⟨(j 0).val, (j 0).isLt⟩
  | ⟨1, _⟩ => ⟨(j 1).val, (j 1).isLt⟩
  | ⟨2, _⟩ => ⟨(j 2).val + 1, by have : (j 2).val < 30 := (j 2).isLt; show (j 2).val + 1 < 32; omega⟩
  | ⟨3, _⟩ => ⟨(j 3).val + 1, by have : (j 3).val < 254 := (j 3).isLt; show (j 3).val + 1 < 256; omega⟩
  | ⟨4, _⟩ => ⟨(j 4).val + 1, by have : (j 4).val < 254 := (j 4).isLt; show (j 4).val + 1 < 256; omega⟩

theorem inner_outward (j : Inside.Idx) : Inner (outward j) := by
  have h2 : (j 2).val < 30 := (j 2).isLt
  have h3 : (j 3).val < 254 := (j 3).isLt
  have h4 : (j 4).val < 254 := (j 4).isLt
  refine ⟨?_, ?_, ?_, ?_, ?_, ?_⟩ <;> (show _ ≤ _; simp only [outward]; omega)

theorem inward_outward (j : Inside.Idx) (h : Inner (outward j)) : inward (outward j) h = j := by
  funext a
  apply Fin.ext
  match a with
  | ⟨0, _⟩ => rfl
  | ⟨1, _⟩ => rfl
  | ⟨2, _⟩ => show (j 2).val + 1 - 1 = (j 2).val; omega
  | ⟨3, _⟩ => show (j 3).val + 1 - 1 = (j 3).val; omega
  | ⟨4, _⟩ => show (j 4).val + 1 - 1 = (j 4).val; omega

theorem outward_inward (i : Whole.Idx) (h : Inner i) : outward (inward i h) = i := by
  funext a
  apply Fin.ext
  match a with
  | ⟨0, _⟩ => rfl
  | ⟨1, _⟩ => rfl
  | ⟨2, _⟩ => have := h.1; show (i 2).val - 1 + 1 = (i 2).val; omega
  | ⟨3, _⟩ => have := h.2.2.1; show (i 3).val - 1 + 1 = (i 3).val; omega
  | ⟨4, _⟩ => have := h.2.2.2.2.1; show (i 4).val - 1 + 1 = (i 4).val; omega

/-- The suppressed array: an inner entry times its keep-bit read as 0 or 1, and zero everywhere else. -/
def suppress (x : Whole.Idx → EReal) (keep : Inside.Idx → BitVec 1) : Whole.Idx → EReal := fun i =>
  if h : Inner i then x i * (((keep (inward i h)).toNat : ℝ) : EReal) else 0

theorem suppress_inner (x : Whole.Idx → EReal) (keep : Inside.Idx → BitVec 1) (i : Whole.Idx) (h : Inner i) :
    suppress x keep i = x i * (((keep (inward i h)).toNat : ℝ) : EReal) := by
  unfold suppress; rw [dif_pos h]

theorem suppress_outer (x : Whole.Idx → EReal) (keep : Inside.Idx → BitVec 1) (i : Whole.Idx) (h : ¬ Inner i) :
    suppress x keep i = 0 := by
  unfold suppress; rw [dif_neg h]

/-- A one-bit word widened to 32 bits and read as a signed integer is the bit read as a natural number: the two
    ways the programs turn a keep-bit into a number agree. -/
theorem widen_signed_eq_unsigned (b : BitVec 1) : ((b.setWidth 32).toInt : ℝ) = ((b.toNat : ℝ)) := by
  have h : ∀ b : BitVec 1, (b.setWidth 32).toInt = (b.toNat : ℤ) := by decide
  rw [h b]; simp

end Cert.Nms

end
-- ==== Proof.KernelPayload.lean ====
/-
  What the body's two stored values are, entry by entry, over the extended reals.

  The body sees one [1, 1, 32, 256, 256] block `blk` of the argument `X`: block entry `y` is the argument's entry
  `e y`, whose first two coordinates are the block's position `(b, c)` and whose last three are `y`'s. The value it
  stores over the inner part is, at `(0, 0, d, h, w)`,  `centre * keep`  where `centre = blk (0, 0, d+1, h+1, w+1)` and
  `keep` is the and, over the 26 offsets `o ≠ (1, 1, 1)` in {0, 1, 2}³, of "centre > blk (0, 0, d + o₀, h + o₁, w + o₂)".
  The reference forms the same and over the whole argument: its centre and neighbours are the slices of `X` at
  offsets `(0, 0, o₀, o₁, o₂)`, read at `(b, c, d, h, w)`. One lemma (`leaf`) says a slice of the block read at
  `(d, h, w)` is that slice of the argument read at `(b, c, d, h, w)`; the two ands then agree term by term, in the
  same order. The keep-bit becomes a number by widening to 32 bits and reading signed on one side, by reading
  unsigned on the other: the same 0 or 1. The value stored over the whole block first is the constant zero.
-/
import proofs.«158420_j35021163332235_1_alg».proof.Proof.Gen.KernelIdeal.Skeleton
import proofs.«158420_j35021163332235_1_alg».proof.Proof.Gen.ReferenceIdeal.Read
import proofs.«158420_j35021163332235_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Payload

open Cert.KernelIdeal Cert.KernelIdeal.Gen Idealize.ShloMosaic
open Cert.Nms (Whole Inside)

/-! ## Indices with and without the two leading unit axes -/

/-- A [32, 256, 256] index placed in the [1, 1, 32, 256, 256] block. -/
def add2 (k : S32x256x256.Idx) : S1x1x32x256x256.Idx := fun a => match a with
  | ⟨0, _⟩ => ⟨0, by show 0 < 1; exact Nat.one_pos⟩
  | ⟨1, _⟩ => ⟨0, by show 0 < 1; exact Nat.one_pos⟩
  | ⟨2, _⟩ => ⟨(k 0).val, by have h : (k 0).val < 32 := (k 0).isLt; exact h⟩
  | ⟨3, _⟩ => ⟨(k 1).val, by have h : (k 1).val < 256 := (k 1).isLt; exact h⟩
  | ⟨4, _⟩ => ⟨(k 2).val, by have h : (k 2).val < 256 := (k 2).isLt; exact h⟩

/-- It sits at the same row-major position: the unit axes contribute nothing. -/
theorem rowMajor_add2 (k : S32x256x256.Idx) :
    (S1x1x32x256x256.rowMajor (add2 k)).val = (S32x256x256.rowMajor k).val := by
  rw [Shape.rowMajor_val_five, Shape.rowMajor_val_three]
  show ((((0 * 1 + 0) * 32 + (k 0).val) * 256 + (k 1).val) * 256 + (k 2).val) = ((k 0).val * 256 + (k 1).val) * 256 + (k 2).val
  omega

/-- A [1, 1, 30, 254, 254] index without its two unit axes. -/
def drop2 (z : S1x1x30x254x254.Idx) : S30x254x254.Idx := fun a => match a with
  | ⟨0, _⟩ => ⟨(z 2).val, by have h : (z 2).val < 30 := (z 2).isLt; exact h⟩
  | ⟨1, _⟩ => ⟨(z 3).val, by have h : (z 3).val < 254 := (z 3).isLt; exact h⟩
  | ⟨2, _⟩ => ⟨(z 4).val, by have h : (z 4).val < 254 := (z 4).isLt; exact h⟩

theorem rowMajor_drop2 (z : S1x1x30x254x254.Idx) :
    (S30x254x254.rowMajor (drop2 z)).val = (S1x1x30x254x254.rowMajor z).val := by
  have h0 : (z 0).val < 1 := (z 0).isLt
  have h1 : (z 1).val < 1 := (z 1).isLt
  rw [Shape.rowMajor_val_five, Shape.rowMajor_val_three]
  show ((z 2).val * 254 + (z 3).val) * 254 + (z 4).val = (((((z 0).val * 1 + (z 1).val) * 30 + (z 2).val) * 254 + (z 3).val) * 254 + (z 4).val)
  have e0 : (z 0).val = 0 := by omega
  have e1 : (z 1).val = 0 := by omega
  rw [e0, e1]; omega

section
variable (X : Whole.Idx → EReal) (blk : Vec Ideal S1x1x32x256x256 .f32) (e : S1x1x32x256x256.Idx → Whole.Idx) (b c : ℕ)

/-! ## One slice of the block is one slice of the argument -/

/-- The block without its unit axes, sliced at offsets `o3` and read at `z'`, is the argument sliced at
    `(0, 0, o3)` and read at `(b, c, z')`. -/
theorem leaf (hblk : ∀ y, blk y = X (e y))
    (he : ∀ y, (e y 0).val = b ∧ (e y 1).val = c ∧ (e y 2).val = (y 2).val ∧ (e y 3).val = (y 3).val ∧ (e y 4).val = (y 4).val)
    (o3 : Fin 3 → ℕ) (hs3 : S32x256x256.Slices o3 S30x254x254) (o5 : Fin 5 → ℕ) (hs5 : Whole.Slices o5 Inside)
    (ho : o5 0 = 0 ∧ o5 1 = 0 ∧ o5 2 = o3 0 ∧ o5 3 = o3 1 ∧ o5 4 = o3 2)
    (hsc : S1x1x32x256x256.ShapeCasts S32x256x256) (z' : S30x254x254.Idx) (j : Inside.Idx)
    (hj : (j 0).val = b ∧ (j 1).val = c ∧ (j 2).val = (z' 0).val ∧ (j 3).val = (z' 1).val ∧ (j 4).val = (z' 2).val) :
    extractStridedSlice S30x254x254 o3 (shapeCast S32x256x256 blk hsc) hs3 z' = extractStridedSlice Inside o5 X hs5 j := by
  obtain ⟨o0, o1, o2, o3', o4⟩ := ho
  obtain ⟨j0, j1, j2, j3, j4⟩ := hj
  unfold extractStridedSlice
  refine (shapeCast_apply blk hsc _ (add2 _) (rowMajor_add2 _)).trans ?_
  rw [hblk]
  refine congrArg X (funext fun a => Fin.ext ?_)
  match a with
  | ⟨0, _⟩ => refine ((he _).1).trans ?_; show b = o5 0 + (j 0).val; omega
  | ⟨1, _⟩ => refine ((he _).2.1).trans ?_; show c = o5 1 + (j 1).val; omega
  | ⟨2, _⟩ => refine ((he _).2.2.1).trans ?_; show o3 0 + (z' 0).val = o5 2 + (j 2).val; omega
  | ⟨3, _⟩ => refine ((he _).2.2.2.1).trans ?_; show o3 1 + (z' 1).val = o5 3 + (j 3).val; omega
  | ⟨4, _⟩ => refine ((he _).2.2.2.2).trans ?_; show o3 2 + (z' 2).val = o5 4 + (j 4).val; omega

/-- The centre: the block's slice at (1, 1, 1) is the argument's slice at (0, 0, 1, 1, 1). -/
theorem centre (hblk : ∀ y, blk y = X (e y))
    (he : ∀ y, (e y 0).val = b ∧ (e y 1).val = c ∧ (e y 2).val = (y 2).val ∧ (e y 3).val = (y 3).val ∧ (e y 4).val = (y 4).val)
    (z' : S30x254x254.Idx) (j : Inside.Idx)
    (hj : (j 0).val = b ∧ (j 1).val = c ∧ (j 2).val = (z' 0).val ∧ (j 3).val = (z' 1).val ∧ (j 4).val = (z' 2).val) :
    k0_pay4 (F := Ideal) blk z' = Cert.ReferenceIdeal.Read.val_main_v0 (F := Ideal) X j := by
  unfold k0_pay4 k0_pay3 Cert.ReferenceIdeal.Read.val_main_v0
  exact leaf X blk e b c hblk he _ _ _ _ (by decide) _ z' j hj

/-- The and starts from the constant 1 on both sides. -/
theorem ones (z' : S30x254x254.Idx) (j : Inside.Idx) :
    broadcast S30x254x254 (1#1 : BitVec 1) z' = Cert.ReferenceIdeal.Read.val_main_v1 (F := Ideal) j :=
  ((Cert.ReferenceIdeal.Read.val_main_v1_apply (F := Ideal) j).trans (Cert.ReferenceIdeal.Read.val_main_c_apply _)).symm

/-- A keep-bit widened to 32 bits, read signed and made a number, is the bit read unsigned. -/
theorem widened (w : IVec S30x254x254 1) (h : 1 < 32) (z' : S30x254x254.Idx) :
    sitofp (F := Ideal) .f32 (extui 32 w h) z' = (((w z').toNat : ℝ) : EReal) := by
  show ((((w z').setWidth 32).toInt : ℝ) : EReal) = _
  rw [Cert.Nms.widen_signed_eq_unsigned]

/-! ## The stored values -/

set_option maxHeartbeats 4000000 in
/-- The value stored over the inner part, at `z`: the argument's entry there times its keep-bit, the keep-bit being
    the reference's own (`j` is `z`'s position among the argument's inner entries, `i` its position in the argument). -/
theorem payload_inner (hblk : ∀ y, blk y = X (e y))
    (he : ∀ y, (e y 0).val = b ∧ (e y 1).val = c ∧ (e y 2).val = (y 2).val ∧ (e y 3).val = (y 3).val ∧ (e y 4).val = (y 4).val)
    (z : S1x1x30x254x254.Idx) (j : Inside.Idx) (i : Whole.Idx)
    (hj : (j 0).val = b ∧ (j 1).val = c ∧ (j 2).val = (z 2).val ∧ (j 3).val = (z 3).val ∧ (j 4).val = (z 4).val)
    (hi : (i 0).val = b ∧ (i 1).val = c ∧ (i 2).val = 1 + (z 2).val ∧ (i 3).val = 1 + (z 3).val ∧ (i 4).val = 1 + (z 4).val) :
    k0_pay2 (F := Ideal) (k0_pay3 (F := Ideal) blk) (k0_pay4 (F := Ideal) blk) (k0_pay5 (F := Ideal) blk) z
      = X i * ((((Cert.ReferenceIdeal.Read.val_main_v79 (F := Ideal) X j).toNat : ℝ)) : EReal) := by
  have hj' : (j 0).val = b ∧ (j 1).val = c ∧ (j 2).val = (drop2 z 0).val ∧ (j 3).val = (drop2 z 1).val ∧ (j 4).val = (drop2 z 2).val := hj
  unfold k0_pay2
  refine (shapeCast_apply _ Gen.shapeCasts_S30x254x254_S1x1x30x254x254 z (drop2 z) (rowMajor_drop2 z)).trans ?_
  refine (ValueIdx.mulf_apply _ _ (drop2 z)).trans ?_
  refine congrArg₂ (· * ·) ?_ ?_
  · -- the centre: the block's slice at (1, 1, 1) is the argument's entry `i`
    obtain ⟨i0, i1, i2, i3, i4⟩ := hi
    show extractStridedSlice S30x254x254 ![1, 1, 1] (shapeCast S32x256x256 blk Gen.shapeCasts_S1x1x32x256x256_S32x256x256) Gen.slices_S32x256x256_o1_1_1_S30x254x254 (drop2 z) = X i
    unfold extractStridedSlice
    refine (shapeCast_apply blk _ _ (add2 _) (rowMajor_add2 _)).trans ?_
    rw [hblk]
    refine congrArg X (funext fun a => Fin.ext ?_)
    match a with
    | ⟨0, _⟩ => refine ((he _).1).trans ?_; exact i0.symm
    | ⟨1, _⟩ => refine ((he _).2.1).trans ?_; exact i1.symm
    | ⟨2, _⟩ => refine ((he _).2.2.1).trans ?_; show 1 + (z 2).val = (i 2).val; omega
    | ⟨3, _⟩ => refine ((he _).2.2.2.1).trans ?_; show 1 + (z 3).val = (i 3).val; omega
    | ⟨4, _⟩ => refine ((he _).2.2.2.2).trans ?_; show 1 + (z 4).val = (i 4).val; omega
  · -- the keep-bit: the two ands agree term by term
    refine (widened _ _ (drop2 z)).trans ?_
    refine congrArg (fun w : BitVec 1 => (((w.toNat : ℝ)) : EReal)) ?_
    repeat' first
      | refine congrArg₂ IntOp.andi ?_ ?_
      | refine congrArg₂ (FloatOps.cmpf CmpFPredicate.ogt) ?_ ?_
      | exact ones (drop2 z) j
      | exact leaf X blk e b c hblk he _ _ _ _ (by decide) _ (drop2 z) j hj'
      | exact centre X blk e b c hblk he (drop2 z) j hj'

end

/-- The value stored over the whole block first is zero at every entry. -/
theorem payload_outer (y : S1x1x32x256x256.Idx) : k0_pay1 (F := Ideal) y = 0 := by
  unfold k0_pay1
  show Scalar.ofBits (F := Ideal) .f32 0x00000000#32 = 0
  exact Ideal.ofBits_zero_f32

end Cert.KernelIdeal.Payload

end
-- ==== Proof.KernelValue.lean ====
/-
  The idealized kernel program's output array after the run, as one function of its argument.

  Point `t` of the 4 x 4 grid sits at block position `(b, c)` of both arrays (the two index maps agree, and are
  zero on the last three axes, where the block is the whole extent). What the point writes back is `outBlock` of the
  argument's block there. Entry `y` of that block lies under array entry `i = (b, c, y₂, y₃, y₄)`, and `i` is an
  inner entry of the array exactly when `y` lies in the inner rectangle the later store writes through. There the
  block holds the later store's value, `X i` times the keep-bit of `i`; elsewhere it holds the earlier store's
  zero. That is the suppressed array read through the block, and the sixteen blocks tile the array.
-/
import proofs.«158420_j35021163332235_1_alg».proof.Proof.KernelIdealBody
import proofs.«158420_j35021163332235_1_alg».proof.Proof.KernelPayload
import Idealize.ShloMosaic.Lib.Pipeline.Value

set_option maxRecDepth 16384

noncomputable section

namespace Cert.KernelIdeal.KValue

open Cert.KernelIdeal Cert.KernelIdeal.Gen Cert.KernelIdeal.Body
open Idealize.ShloMosaic Idealize.ShloMosaic.TcCoe
open Idealize.SL Idealize.SL.Sem
open Idealize.ShloMosaic.Pipeline (Dat Cfg Window)
open Cert.Nms (Whole Inside)

variable (m : (ℓ : Loc nD τ sig) → Buf (Elt Ideal) ℓ) (ρ : Dev nD → PrngReg)

/-- The suppressed argument: what both programs end with. The keep-bits are the reference's own stage. -/
def target (c : Dev nD) : Whole.Idx → EReal :=
  Cert.Nms.suppress (V m c main_arg0) (Cert.ReferenceIdeal.Read.val_main_v79 (F := Ideal) (V m c main_arg0))

/-! ## The index maps over the grid -/

/-- The two windows move together, over the first two axes only, and stay inside the 4 x 4 blocks. -/
theorem idx_facts : ∀ t : Fin cfg0.N,
    win0_0.index t (0 : Fin 5) = win0_1.index t (0 : Fin 5) ∧ win0_0.index t (1 : Fin 5) = win0_1.index t (1 : Fin 5)
    ∧ win0_0.index t (2 : Fin 5) = 0 ∧ win0_0.index t (3 : Fin 5) = 0 ∧ win0_0.index t (4 : Fin 5) = 0
    ∧ win0_1.index t (2 : Fin 5) = 0 ∧ win0_1.index t (3 : Fin 5) = 0 ∧ win0_1.index t (4 : Fin 5) = 0
    ∧ win0_1.index t (0 : Fin 5) ≤ 3 ∧ win0_1.index t (1 : Fin 5) ≤ 3 :=
  (by decide +kernel : ∀ t : Fin grid0.N, _)

/-- Every block position is some point's. -/
theorem idx_onto : ∀ (q0 q1 : Fin 4), ∃ t : Fin cfg0.N, win0_1.index t = ![q0.val, q1.val, 0, 0, 0] :=
  (by decide +kernel : ∀ (q0 q1 : Fin 4), ∃ t : Fin grid0.N, win0_1.index t = ![q0.val, q1.val, 0, 0, 0])

/-! ## One block -/

/-- Two stores, the later through the inner rectangle over the earlier through the whole block: on the inner
    rectangle the later store's value is read, -/
theorem canon_inner (p : rIn.shape.Idx → Elt Ideal .f32) (q : rAll.shape.Idx → Elt Ideal .f32) (z : rIn.shape.Idx) :
    View.canon ([⟨rIn, p⟩, ⟨rAll, q⟩] : List (View.Piece (Elt Ideal) S1x1x32x256x256 .f32)) (rIn.emb z) = p z :=
  View.canon_cons_emb rIn p [⟨rAll, q⟩] z

/-- and off it the earlier store's. -/
theorem canon_outer (p : rIn.shape.Idx → Elt Ideal .f32) (q : rAll.shape.Idx → Elt Ideal .f32) (y : S1x1x32x256x256.Idx)
    (hin : y ∉ rIn.set) :
    View.canon ([⟨rIn, p⟩, ⟨rAll, q⟩] : List (View.Piece (Elt Ideal) S1x1x32x256x256 .f32)) y = q y :=
  (View.canon_cons_of_not_mem (⟨rIn, p⟩ : View.Piece (Elt Ideal) S1x1x32x256x256 .f32) [⟨rAll, q⟩] hin).trans
    (congrFun (View.canon_unit_zero offAll_zero Facts₀.inb_S1x1x32x256x256_S1x1x32x256x256_0_0_0_0_0 q) y)

/-- The array entry under block entry `y` is inner exactly when `y` is in the inner rectangle. -/
theorem inner_iff (t : Fin cfg0.N) (y : S1x1x32x256x256.Idx) :
    Cert.Nms.Inner (((cfg0.win 1).blk t).view.emb y) ↔ y ∈ rIn.set := by
  obtain ⟨e0, e1, a2, a3, a4, b2, b3, b4, l0, l1⟩ := idx_facts t
  have h0 : (y 0).val < 1 := (y 0).isLt
  have h1 : (y 1).val < 1 := (y 1).isLt
  have h2 : (y 2).val < 32 := (y 2).isLt
  have h3 : (y 3).val < 256 := (y 3).isLt
  have h4 : (y 4).val < 256 := (y 4).isLt
  rw [Rect.mem_set_unit]
  unfold Cert.Nms.Inner
  show (1 ≤ win0_1.index t (2 : Fin 5) * 32 + 1 * (y 2).val ∧ win0_1.index t (2 : Fin 5) * 32 + 1 * (y 2).val ≤ 30
      ∧ 1 ≤ win0_1.index t (3 : Fin 5) * 256 + 1 * (y 3).val ∧ win0_1.index t (3 : Fin 5) * 256 + 1 * (y 3).val ≤ 254
      ∧ 1 ≤ win0_1.index t (4 : Fin 5) * 256 + 1 * (y 4).val ∧ win0_1.index t (4 : Fin 5) * 256 + 1 * (y 4).val ≤ 254) ↔ _
  rw [b2, b3, b4]
  constructor
  · intro h a
    match a with
    | ⟨0, _⟩ => show 0 ≤ (y 0).val ∧ (y 0).val < 0 + 1; omega
    | ⟨1, _⟩ => show 0 ≤ (y 1).val ∧ (y 1).val < 0 + 1; omega
    | ⟨2, _⟩ => show 1 ≤ (y 2).val ∧ (y 2).val < 1 + 30; omega
    | ⟨3, _⟩ => show 1 ≤ (y 3).val ∧ (y 3).val < 1 + 254; omega
    | ⟨4, _⟩ => show 1 ≤ (y 4).val ∧ (y 4).val < 1 + 254; omega
  · intro h
    have g2 : 1 ≤ (y 2).val ∧ (y 2).val < 1 + 30 := h 2
    have g3 : 1 ≤ (y 3).val ∧ (y 3).val < 1 + 254 := h 3
    have g4 : 1 ≤ (y 4).val ∧ (y 4).val < 1 + 254 := h 4
    omega

set_option maxHeartbeats 1000000 in
/-- What point `t` writes back is block `t` of the suppressed argument. -/
theorem flushed_eq (c : Dev nD) (t : Fin cfg0.N) :
    (dats m 0 c).flushed 1 t = ((cfg0.win 1).blk t).view.read (Elt Ideal) (target m c) := by
  show (cfg0.win 1).cut (grid0.coords t) ((dats m 0 c).after 1 t) = _
  rw [after0_1]
  obtain ⟨e0, e1, a2, a3, a4, b2, b3, b4, l0, l1⟩ := idx_facts t
  funext y
  show outBlock (iblk m c 0 t) y = target m c (((cfg0.win 1).blk t).view.emb y)
  have hblk : ∀ y', iblk m c 0 t y' = V m c main_arg0 (((cfg0.win 0).blk t).view.emb y') := fun _ => rfl
  have he : ∀ y' : S1x1x32x256x256.Idx,
      ((((cfg0.win 0).blk t).view.emb y') 0).val = win0_1.index t (0 : Fin 5)
      ∧ ((((cfg0.win 0).blk t).view.emb y') 1).val = win0_1.index t (1 : Fin 5)
      ∧ ((((cfg0.win 0).blk t).view.emb y') 2).val = (y' 2).val
      ∧ ((((cfg0.win 0).blk t).view.emb y') 3).val = (y' 3).val
      ∧ ((((cfg0.win 0).blk t).view.emb y') 4).val = (y' 4).val := by
    intro y'
    have h0 : (y' 0).val < 1 := (y' 0).isLt
    have h1 : (y' 1).val < 1 := (y' 1).isLt
    refine ⟨?_, ?_, ?_, ?_, ?_⟩
    · show win0_0.index t (0 : Fin 5) * 1 + 1 * (y' 0).val = _; omega
    · show win0_0.index t (1 : Fin 5) * 1 + 1 * (y' 1).val = _; omega
    · show win0_0.index t (2 : Fin 5) * 32 + 1 * (y' 2).val = _; omega
    · show win0_0.index t (3 : Fin 5) * 256 + 1 * (y' 3).val = _; omega
    · show win0_0.index t (4 : Fin 5) * 256 + 1 * (y' 4).val = _; omega
  by_cases hin : y ∈ rIn.set
  · -- under the later store: the argument's entry times its keep-bit
    have hI : Cert.Nms.Inner (((cfg0.win 1).blk t).view.emb y) := (inner_iff t y).2 hin
    rw [← Rect.map_emb_univ] at hin
    obtain ⟨z, -, rfl⟩ := Finset.mem_map.1 hin
    have z0 : (z 0).val < 1 := (z 0).isLt
    have z1 : (z 1).val < 1 := (z 1).isLt
    unfold target
    rw [Cert.Nms.suppress_inner _ _ _ hI]
    unfold outBlock pieces
    refine (canon_inner _ _ z).trans ?_
    refine Cert.KernelIdeal.Payload.payload_inner (V m c main_arg0) (iblk m c 0 t) _ _ _ hblk he z _ _ ⟨?_, ?_, ?_, ?_, ?_⟩ ⟨?_, ?_, ?_, ?_, ?_⟩
    · show win0_1.index t (0 : Fin 5) * 1 + 1 * (0 + 1 * (z 0).val) = _; omega
    · show win0_1.index t (1 : Fin 5) * 1 + 1 * (0 + 1 * (z 1).val) = _; omega
    · show win0_1.index t (2 : Fin 5) * 32 + 1 * (1 + 1 * (z 2).val) - 1 = _; omega
    · show win0_1.index t (3 : Fin 5) * 256 + 1 * (1 + 1 * (z 3).val) - 1 = _; omega
    · show win0_1.index t (4 : Fin 5) * 256 + 1 * (1 + 1 * (z 4).val) - 1 = _; omega
    · show win0_1.index t (0 : Fin 5) * 1 + 1 * (0 + 1 * (z 0).val) = _; omega
    · show win0_1.index t (1 : Fin 5) * 1 + 1 * (0 + 1 * (z 1).val) = _; omega
    · show win0_1.index t (2 : Fin 5) * 32 + 1 * (1 + 1 * (z 2).val) = _; omega
    · show win0_1.index t (3 : Fin 5) * 256 + 1 * (1 + 1 * (z 3).val) = _; omega
    · show win0_1.index t (4 : Fin 5) * 256 + 1 * (1 + 1 * (z 4).val) = _; omega
  · -- off it: the earlier store's zero, and the array entry is not inner
    have hO : ¬ Cert.Nms.Inner (((cfg0.win 1).blk t).view.emb y) := fun h => hin ((inner_iff t y).1 h)
    unfold target
    rw [Cert.Nms.suppress_outer _ _ _ hO]
    unfold outBlock pieces
    exact (canon_outer _ _ y hin).trans (Cert.KernelIdeal.Payload.payload_outer y)

/-! ## The whole array -/

/-- An array entry is in point `t`'s block iff each coordinate is in the block's range on its axis. -/
theorem mem_blk (t : Fin cfg0.N) (i : S4x4x32x256x256.Idx) :
    i ∈ ((cfg0.win 1).blk t).view.set ↔ ∀ a : Fin 5, win0_1.index t a * S1x1x32x256x256.size a ≤ (i a).val
      ∧ (i a).val < win0_1.index t a * S1x1x32x256x256.size a + S1x1x32x256x256.size a := by
  show i ∈ ((View.whole main_v0).slice (win0_1.rect t)).set ↔ _
  rw [View.set_slice_whole, Rect.mem_set_unit]
  exact Iff.rfl

/-- The sixteen blocks cover the array: entry `i` is in the block at position `(i₀, i₁)`. -/
theorem cover (i : S4x4x32x256x256.Idx) :
    ∃ t : Fin cfg0.N, (cfg0.win 1).flush t = true ∧ i ∈ ((cfg0.win 1).blk t).view.set := by
  have h0 : (i 0).val < 4 := (i 0).isLt
  have h1 : (i 1).val < 4 := (i 1).isLt
  have h2 : (i 2).val < 32 := (i 2).isLt
  have h3 : (i 3).val < 256 := (i 3).isLt
  have h4 : (i 4).val < 256 := (i 4).isLt
  obtain ⟨t, ht⟩ := idx_onto ⟨(i 0).val, h0⟩ ⟨(i 1).val, h1⟩
  have q0 : win0_1.index t (0 : Fin 5) = (i 0).val := congrFun ht 0
  have q1 : win0_1.index t (1 : Fin 5) = (i 1).val := congrFun ht 1
  have q2 : win0_1.index t (2 : Fin 5) = 0 := congrFun ht 2
  have q3 : win0_1.index t (3 : Fin 5) = 0 := congrFun ht 3
  have q4 : win0_1.index t (4 : Fin 5) = 0 := congrFun ht 4
  refine ⟨t, flush0_1 t, ?_⟩
  rw [mem_blk]
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 1 ≤ (i 1).val ∧ (i 1).val < win0_1.index t (1 : Fin 5) * 1 + 1; omega
  | ⟨2, _⟩ => show win0_1.index t (2 : Fin 5) * 32 ≤ (i 2).val ∧ (i 2).val < win0_1.index t (2 : Fin 5) * 32 + 32; omega
  | ⟨3, _⟩ => show win0_1.index t (3 : Fin 5) * 256 ≤ (i 3).val ∧ (i 3).val < win0_1.index t (3 : Fin 5) * 256 + 256; omega
  | ⟨4, _⟩ => show win0_1.index t (4 : Fin 5) * 256 ≤ (i 4).val ∧ (i 4).val < win0_1.index t (4 : Fin 5) * 256 + 256; omega

/-- The output array after the run is the suppressed argument. -/
theorem final (c : Dev nD) : (dats m 0 c).arrAt 1 cfg0.N = target m c :=
  (dats m 0 c).arrAt_eq_of_cover 1 (target m c) (fun t _ => flushed_eq m c t) cover

/-- The run, read: the result array ends at the suppressed argument and the argument is unchanged. -/
theorem run : θ_run defs (onTc (τ := τ) (main (F := Ideal))) ⟨m, fun _ => 0, ρ⟩ fun r => ∀ c : Dev nD,
      r.2.mem ((c.tc : Thread nD τ).loc main_v0) = target m c
      ∧ r.2.mem ((c.tc : Thread nD τ).loc main_arg0) = m ((c.tc : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.KValue

end
-- ==== Proof.LibScatterSet.lean ====
import Idealize.ShloMosaic.PureOps.ShapeOps

/-!
# Reading a scatter whose body returns the update (a SET)

`Host.scatter d f x idx upd` walks the update indices in row-major order; the update at index
`j` lands at the operand index `d.resultIdx? j idx` (when that is inside the operand) and
replaces the element there by `f old new`. With `f = fun _ b => b` the element is simply
overwritten, so the value read at an operand index `i` afterwards is decided by the LAST update
that lands at `i`:

* if no update lands at `i`, the operand's own element is read (`scatter_set_of_miss`);
* if the landing map is injective — each operand index is hit by at most one update — and the
  update `j0` lands at `i`, then `upd j0` is read (`scatter_set_of_hit`).

Both are instances of two facts about a left fold `l.foldl stp r` of functions, read at one point
`i`: steps that leave the value at `i` alone can be dropped, and a step that fixes the value at
`i` whatever came before, followed only by steps that leave `i` alone, decides it.
-/

namespace Idealize.ShloMosaic.Host

section Fold
variable {ι β α : Type}

/-- A left fold of functions read at the point `i`: when every step of the list leaves the
    value at `i` as it found it, the fold's value at `i` is the initial function's. -/
theorem foldl_apply_of_forall_keep (stp : (β → α) → ι → (β → α)) (i : β) :
    ∀ (l : List ι) (r : β → α), (∀ n ∈ l, ∀ r', stp r' n i = r' i) → l.foldl stp r i = r i := by
  intro l
  induction l with
  | nil => intro r _; rfl
  | cons n l ih =>
    intro r h
    rw [List.foldl_cons, ih _ (fun m hm => h m (List.mem_cons_of_mem _ hm))]
    exact h n List.mem_cons_self r

/-- A left fold of functions read at the point `i`: when the step at `n0` puts `a` at `i`
    whatever the function before it was, and every later step leaves the value at `i` alone,
    the fold's value at `i` is `a` (the steps before `n0` do not matter). -/
theorem foldl_apply_of_last_set (stp : (β → α) → ι → (β → α)) (i : β) (l1 l2 : List ι) (n0 : ι)
    (r : β → α) (a : α) (hset : ∀ r', stp r' n0 i = a) (hkeep : ∀ n ∈ l2, ∀ r', stp r' n i = r' i) :
    (l1 ++ n0 :: l2).foldl stp r i = a := by
  rw [List.foldl_append, List.foldl_cons, foldl_apply_of_forall_keep stp i l2 _ hkeep]
  exact hset _

end Fold

variable {s si u : Shape} {α : Type} {w : Nat}

/-- One step of a scatter that sets, read at `i`, for an update that does NOT land at `i`:
    the value at `i` is unchanged. -/
private theorem setStep_of_ne (d : ScatterDims s si u) (idx : IVec si w) (upd : u.Idx → α)
    (r : s.Idx → α) (j : u.Idx) (i : s.Idx) (h : d.resultIdx? j idx ≠ some i) :
    (match d.resultIdx? j idx with
      | some k => fun i' => if i' = k then (fun (_ b : α) => b) (r k) (upd j) else r i'
      | none => r) i = r i := by
  revert h
  cases d.resultIdx? j idx with
  | none => intro _; rfl
  | some k =>
    intro h
    have hne : i ≠ k := fun hik => h (by rw [hik])
    show (if i = k then _ else r i) = r i
    rw [if_neg hne]

/-- One step of a scatter that sets, read at `i`, for an update that lands at `i`: the value
    at `i` becomes the update's element. -/
private theorem setStep_of_eq (d : ScatterDims s si u) (idx : IVec si w) (upd : u.Idx → α)
    (r : s.Idx → α) (j : u.Idx) (i : s.Idx) (h : d.resultIdx? j idx = some i) :
    (match d.resultIdx? j idx with
      | some k => fun i' => if i' = k then (fun (_ b : α) => b) (r k) (upd j) else r i'
      | none => r) i = upd j := by
  revert h
  cases d.resultIdx? j idx with
  | none => intro h; cases h
  | some k =>
    intro h
    have hik : i = k := (Option.some.inj h).symm
    show (if i = k then upd j else r i) = upd j
    rw [if_pos hik]

/-- A scatter that SETS (its body returns the update), read at an operand index `i` at which no
    update lands: the operand's own element. Nothing is asked of the other operand indices. -/
theorem scatter_set_of_miss (d : ScatterDims s si u) (x : s.Idx → α) (idx : IVec si w)
    (upd : u.Idx → α) (i : s.Idx) (hmiss : ∀ j, d.resultIdx? j idx ≠ some i) :
    Host.scatter d (fun _ b => b) x idx upd i = x i := by
  unfold Host.scatter
  refine foldl_apply_of_forall_keep _ i _ x ?_
  intro n _ r'
  exact setStep_of_ne d idx upd r' (u.rowMajor.symm n) i (hmiss _)

/-- A scatter that SETS, read at an operand index `i` at which exactly one update lands: when
    any two updates landing at `i` are the same update, and `j0` lands at `i`, the value read
    is `upd j0`. (The hypothesis speaks of the index `i` only.) -/
theorem scatter_set_of_hit_at (d : ScatterDims s si u) (x : s.Idx → α) (idx : IVec si w)
    (upd : u.Idx → α) (i : s.Idx) (j0 : u.Idx)
    (hinj : ∀ j j', d.resultIdx? j idx = some i → d.resultIdx? j' idx = some i → j = j')
    (hhit : d.resultIdx? j0 idx = some i) :
    Host.scatter d (fun _ b => b) x idx upd i = upd j0 := by
  unfold Host.scatter
  -- split the row-major walk at the position of `j0`
  obtain ⟨l1, l2, hl⟩ := List.append_of_mem (List.mem_finRange (u.rowMajor j0))
  have hnd : (l1 ++ u.rowMajor j0 :: l2).Nodup := hl ▸ List.nodup_finRange u.numel
  have hnot : u.rowMajor j0 ∉ l2 := (List.nodup_cons.1 (List.nodup_append.1 hnd).2.1).1
  have hj0 : u.rowMajor.symm (u.rowMajor j0) = j0 := u.rowMajor.symm_apply_apply j0
  rw [hl]
  refine foldl_apply_of_last_set _ i l1 l2 (u.rowMajor j0) x (upd j0) ?_ ?_
  · intro r'
    have := setStep_of_eq d idx upd r' (u.rowMajor.symm (u.rowMajor j0)) i (by rw [hj0]; exact hhit)
    rw [hj0] at this
    rw [hj0]
    exact this
  · -- a later position holds another update index, which by injectivity does not land at `i`
    intro n hn r'
    refine setStep_of_ne d idx upd r' (u.rowMajor.symm n) i ?_
    intro hland
    have hjn : u.rowMajor.symm n = j0 := hinj _ _ hland hhit
    have : n = u.rowMajor j0 := by rw [← hjn, u.rowMajor.apply_symm_apply]
    exact hnot (this ▸ hn)

/-- A scatter that SETS, under an injective landing map (each operand index is hit by at most
    one update): at the operand index `i` where update `j0` lands, the value read is `upd j0`. -/
theorem scatter_set_of_hit (d : ScatterDims s si u) (x : s.Idx → α) (idx : IVec si w)
    (upd : u.Idx → α) (i : s.Idx) (j0 : u.Idx)
    (hinj : ∀ j j' i, d.resultIdx? j idx = some i → d.resultIdx? j' idx = some i → j = j')
    (hhit : d.resultIdx? j0 idx = some i) :
    Host.scatter d (fun _ b => b) x idx upd i = upd j0 :=
  scatter_set_of_hit_at d x idx upd i j0 (fun j j' => hinj j j' i) hhit

end Idealize.ShloMosaic.Host
-- ==== Proof.RefValue.lean ====
import proofs.«158420_j35021163332235_1_alg».proof.Proof.Gen.ReferenceIdeal.Read
import proofs.«158420_j35021163332235_1_alg».proof.Proof.Spec
import proofs.«158420_j35021163332235_1_alg».proof.Proof.LibScatterSet

/-!
# The reference's result as the suppressed array

The reference builds its keep-bits on the inner entries only (a [4, 4, 30, 254, 254] array) and
then places them inside an all-false array of the whole shape by ONE scatter: a single start
index, the vector (1, 1, 1) for the last three axes, and an update window that is the whole array
of keep-bits. Update entry `j` therefore lands at `j` moved by one along each of the last three
axes — `outward j` — which is always inside the operand, and distinct entries land at distinct
places. Reading the scattered array at `i` thus splits in two: an inner `i` is hit by exactly the
entry `inward i`, whose keep-bit is read; any other `i` is hit by nothing and keeps the operand's
`false`. Turning the bit into the number 0 or 1 and multiplying by the input gives the
suppressed array.
-/

noncomputable section

namespace Cert.ReferenceIdeal.RefValue

open Cert.ReferenceIdeal Cert.ReferenceIdeal.Gen Cert.ReferenceIdeal.Read Idealize.ShloMosaic Cert.Nms

variable {F : FTy → Type} [FloatOps F]

/-- The scatter's dimension numbers: the update window is the whole update array, its axes in the
    operand's order; the one start index names the operand's last three axes. -/
abbrev dn : ScatterDims S4x4x32x256x256 S3 S4x4x30x254x254 :=
  scatter_S4x4x32x256x256_S3_S4x4x30x254x254_01234_n_234_0

/-- The one index of a one-element vector. -/
private def only : S1.Idx := fun a => match a with
  | ⟨0, _⟩ => ⟨0, by show 0 < 1; omega⟩

/-- A coordinate read on two equal axes is the same number. -/
private theorem coord_congr {s : Shape} (j : s.Idx) {a b : Fin s.rank} (h : a = b) : (j a).val = (j b).val := by
  subst h; rfl

/-- The start-index vector is three words laid end to end, each the constant 1: every component is 1. -/
theorem v84_eq_one (k : S3.Idx) : val_main_v84 (F := F) k = 1#32 := by
  have hk : (k 0).val < 3 := (k 0).isLt
  have hi : ∀ b : Fin S1.rank, b.cast (rfl : S1.rank = S3.rank) ≠ (0 : Fin S3.rank) →
      (only b).val = (k (b.cast (rfl : S1.rank = S3.rank))).val :=
    fun b hb => absurd (Fin.ext (by have := b.isLt; show b.val = 0; change b.val < 1 at this; omega)) hb
  unfold val_main_v84
  rcases (by omega : (k 0).val = 0 ∨ (k 0).val = 1 ∨ (k 0).val = 2) with h0 | h0 | h0
  · rw [concatenate_apply_piece 0 _ _ k 0 (by show (0 : Nat) < 3; omega) S1 (val_main_v81 (F := F)) rfl rfl 0 rfl
      only hi (by show 0 + 0 = (k 0).val; omega)]
    rw [val_main_v81_apply, val_main_c_1_apply]
  · rw [concatenate_apply_piece 0 _ _ k 1 (by show (1 : Nat) < 3; omega) S1 (val_main_v82 (F := F)) rfl rfl 1 rfl
      only hi (by show 1 + 0 = (k 0).val; omega)]
    rw [val_main_v82_apply, val_main_c_2_apply]
  · rw [concatenate_apply_piece 0 _ _ k 2 (by show (2 : Nat) < 3; omega) S1 (val_main_v83 (F := F)) rfl rfl 2 rfl
      only hi (by show 2 + 0 = (k 0).val; omega)]
    rw [val_main_v83_apply, val_main_c_3_apply]

/-- The window's start on operand axis `a`: 1 on the three scattered axes, 0 on the first two. -/
theorem start_eq (j : S4x4x30x254x254.Idx) (a : Fin S4x4x32x256x256.rank) :
    dn.start j (val_main_v84 (F := F)) a = if a ∈ dn.scatterDimsToOperandDims then 1 else 0 := by
  unfold ScatterDims.start
  split
  · rw [v84_eq_one]; rfl
  · rfl

/-- The window coordinate on operand axis `a` is the update index's own coordinate: the update
    window is the whole update array, its axes in the operand's order. -/
theorem window_eq (j : S4x4x30x254x254.Idx) : ∀ a : Fin S4x4x32x256x256.rank, dn.window j a = (j a).val
  | ⟨0, _⟩ => by unfold ScatterDims.window; rw [dif_pos (by decide +revert)]; exact coord_congr j (by decide +revert)
  | ⟨1, _⟩ => by unfold ScatterDims.window; rw [dif_pos (by decide +revert)]; exact coord_congr j (by decide +revert)
  | ⟨2, _⟩ => by unfold ScatterDims.window; rw [dif_pos (by decide +revert)]; exact coord_congr j (by decide +revert)
  | ⟨3, _⟩ => by unfold ScatterDims.window; rw [dif_pos (by decide +revert)]; exact coord_congr j (by decide +revert)
  | ⟨4, _⟩ => by unfold ScatterDims.window; rw [dif_pos (by decide +revert)]; exact coord_congr j (by decide +revert)

/-- Start plus window coordinate is the coordinate of `outward j`, on every axis. -/
theorem start_add_window (j : S4x4x30x254x254.Idx) : ∀ a : Fin S4x4x32x256x256.rank,
    dn.start j (val_main_v84 (F := F)) a + (dn.window j a : Int) = ((outward j a).val : Int)
  | ⟨0, _⟩ => by
    rw [start_eq, window_eq, if_neg (by decide +revert)]
    show (0 : Int) + ((j 0).val : Int) = ((j 0).val : Int); omega
  | ⟨1, _⟩ => by
    rw [start_eq, window_eq, if_neg (by decide +revert)]
    show (0 : Int) + ((j 1).val : Int) = ((j 1).val : Int); omega
  | ⟨2, _⟩ => by
    rw [start_eq, window_eq, if_pos (by decide +revert)]
    show (1 : Int) + ((j 2).val : Int) = (((j 2).val + 1 : Nat) : Int); omega
  | ⟨3, _⟩ => by
    rw [start_eq, window_eq, if_pos (by decide +revert)]
    show (1 : Int) + ((j 3).val : Int) = (((j 3).val + 1 : Nat) : Int); omega
  | ⟨4, _⟩ => by
    rw [start_eq, window_eq, if_pos (by decide +revert)]
    show (1 : Int) + ((j 4).val : Int) = (((j 4).val + 1 : Nat) : Int); omega

/-- Every update entry lands inside the operand, at its own position moved one step inward from
    the low faces of the last three axes. -/
theorem resultIdx_eq (j : S4x4x30x254x254.Idx) :
    dn.resultIdx? j (val_main_v84 (F := F)) = some (outward j) := by
  have hs := start_add_window (F := F) j
  unfold ScatterDims.resultIdx?
  rw [dif_pos (fun a => by rw [hs a]; exact ⟨Int.natCast_nonneg _, Int.ofNat_lt.2 (outward j a).isLt⟩)]
  congr 1
  funext a
  apply Fin.ext
  show (dn.start j (val_main_v84 (F := F)) a + (dn.window j a : Int)).toNat = (outward j a).val
  rw [hs a]; exact Int.toNat_natCast _

/-- Distinct inner positions sit at distinct places of the whole array. -/
theorem outward_injective {j j' : Inside.Idx} (h : outward j = outward j') : j = j' := by
  have e : ∀ (i i' : Whole.Idx) (hi : Inner i) (hi' : Inner i'), i = i' → inward i hi = inward i' hi' := by
    intro i i' hi hi' hii; subst hii; rfl
  exact (inward_outward j (inner_outward j)).symm.trans
    ((e _ _ _ _ h).trans (inward_outward j' (inner_outward j')))

/-- The scattered array read at an entry: the keep-bit of the matching inner position at an inner
    entry, `false` at every other entry. -/
theorem scatter_read (x : (⟨S4x4x32x256x256, .f32⟩ : BufTy).Contents (Elt F)) (i : S4x4x32x256x256.Idx) :
    val_main_v85 (F := F) x i = if h : Inner i then val_main_v79 (F := F) x (inward i h) else 0#1 := by
  unfold val_main_v85
  by_cases h : Inner i
  · rw [dif_pos h]
    refine Host.scatter_set_of_hit _ _ _ _ i (inward i h) ?_ ?_
    · intro j j' i' hj hj'
      rw [resultIdx_eq] at hj hj'
      exact outward_injective ((Option.some.inj hj).trans (Option.some.inj hj').symm)
    · rw [resultIdx_eq, outward_inward]
  · rw [dif_neg h]
    rw [Host.scatter_set_of_miss _ _ _ _ i (fun j hj => h (by
      rw [resultIdx_eq] at hj
      rw [← Option.some.inj hj]; exact inner_outward j))]
    rw [val_main_v80_apply, val_main_c_0_apply]

open Cert.ReferenceIdeal Cert.ReferenceIdeal.Read Idealize.ShloMosaic in
/-- The reference's result is the suppressed array of its own keep-bits. -/
theorem result_eq (x : (⟨S4x4x32x256x256, .f32⟩ : BufTy).Contents (Elt Ideal)) :
    val_main_v87 (F := Ideal) x = Cert.Nms.suppress x (val_main_v79 (F := Ideal) x) := by
  funext i
  rw [val_main_v87_apply, val_main_v86_apply, scatter_read]
  by_cases h : Inner i
  · rw [suppress_inner _ _ _ h, dif_pos h]; rfl
  · rw [suppress_outer _ _ _ h, dif_neg h]
    show x i * (((0#1 : BitVec 1).toNat : ℝ) : EReal) = 0
    simp

end Cert.ReferenceIdeal.RefValue

end
-- ==== Proof.lean ====
/-
  Non-maximum suppression with a 3x3x3 window over a [4, 4, 32, 256, 256] array: the kernel program and the plain
  reference compute the same array over the extended reals.

  Both keep an entry exactly when it has a neighbour on each side along the last three axes and is strictly greater
  than all 26 of those neighbours, and put zero everywhere else; a kept entry is the entry itself, `x * 1`.
  The two programs differ only in how they arrange this. The kernel works one [32, 256, 256] slab at a time: it zeroes
  the slab of the result and then overwrites the slab's inner part with `centre * keep`. The reference forms the
  keep-bits of all inner entries at once, places them inside an all-false array of the full shape, and multiplies the
  whole argument by the bits read as 0 or 1; outside the inner part that product is `x * 0 = 0`, which needs no
  finiteness of `x` on the extended reals. The 26 comparisons and their conjunction are literally the same operations
  on both sides, taken in the same order, and the bit becomes the same number on both sides (widened and read signed
  on one, read unsigned on the other).

  The kernel programs' frames: the body is run once, at a generic grid point, for any number type, and the pipeline is
  launched with the block it leaves as proof data (Proof/KernelBody.lean, Proof/KernelIdealBody.lean). The kernel's
  value: that block read entry by entry (Proof/KernelPayload.lean) and the sixteen blocks assembled into the array
  (Proof/KernelValue.lean). The reference's value: its last stage, with the placing of the keep-bits read as a
  two-case function (Proof/RefValue.lean over Proof/LibScatterSet.lean). Both equal `Cert.Nms.suppress` of the
  argument and the same keep-bits (Proof/Spec.lean). Nothing was rewritten between the kernel and its idealization,
  so that conjunct is trivial.
-/
import proofs.«158420_j35021163332235_1_alg».proof.Defs
import proofs.«158420_j35021163332235_1_alg».proof.Proof.Gen.Kernel
import proofs.«158420_j35021163332235_1_alg».proof.Proof.Gen.KernelIdeal
import proofs.«158420_j35021163332235_1_alg».proof.Proof.Gen.ReferenceIdeal
import proofs.«158420_j35021163332235_1_alg».proof.Proof.Gen.Pre_finite_inputs
import proofs.«158420_j35021163332235_1_alg».proof.Proof.Gen.ReferenceIdeal.Run
import proofs.«158420_j35021163332235_1_alg».proof.Proof.Gen.ReferenceIdeal.Read
import proofs.«158420_j35021163332235_1_alg».proof.Proof.KernelBody
import proofs.«158420_j35021163332235_1_alg».proof.Proof.KernelIdealBody
import proofs.«158420_j35021163332235_1_alg».proof.Proof.KernelValue
import proofs.«158420_j35021163332235_1_alg».proof.Proof.RefValue
import Idealize.ShloMosaic.Adequacy
import Idealize.ShloMosaic.Init

noncomputable section

namespace Cert.Proof

open Idealize.ShloMosaic Idealize.SL.Sem

/-- The kernel program runs and leaves its argument as it was. -/
theorem frame_kernel : Cert.frame_Kernel := fun m ρ _ => Cert.Kernel.Body.frame m ρ

/-- So does its idealization. -/
theorem frame_kernelIdeal : Cert.frame_KernelIdeal := fun m ρ _ => Cert.KernelIdeal.Body.frame m ρ

/-- The reference runs and leaves its argument as it was: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the argument, both programs end with the suppressed argument: the kernel's sixteen
    blocks assemble into it, and the reference's last stage is it. -/
theorem algebraic : Cert.algebraic_KernelIdeal_ReferenceIdeal := by
  intro m ρ m' ρ' _ hagree
  refine ⟨fun c => Cert.KernelIdeal.KValue.target m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v87_eq, hagree c, Cert.ReferenceIdeal.RefValue.result_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
